-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1600000 : Shape := ⟨1, ![1600000]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_
  slices_S2x1600000_S1x1600000_1_0 : S2x1600000.Slices ![1, 0] S1x1600000
  shapeCasts_S1x1600000_S1600000 : S1x1600000.ShapeCasts S1600000

variable [Facts]

def fn_part1 {F : FTy → Type} [FloatOps F] (main_arg3 : IVec S2x1600000 32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : IVec S1x1600000 32 := (extractStridedSlice S1x1600000 ![1, 0] · slices_S2x1600000_S1x1600000_1_0) main_arg3
  let main_v20 : IVec S1600000 32 := shapeCast S1600000 main_v19 shapeCasts_S1x1600000_S1600000
  let main_c_6 : IVec S_ 32 := constantI S_ 32 4294867296#32
  let main_v21 : IVec S1600000 32 := broadcastInDim S1600000 ![] bcast_S_S1600000 main_c_6
  let main_v22 : IVec S1600000 1 := cmpi .sge main_v20 main_v21
  let main_v23 : IVec S1x1600000 32 := (extractStridedSlice S1x1600000 ![1, 0] · slices_S2x1600000_S1x1600000_1_0) main_arg3
  let main_v24 : IVec S1600000 32 := shapeCast S1600000 main_v23 shapeCasts_S1x1600000_S1600000
  let main_c_7 : IVec S_ 32 := constantI S_ 32 100000#32
  let main_v25 : IVec S1600000 32 := broadcastInDim S1600000 ![] bcast_S_S1600000 main_c_7
  let main_v26 : IVec S1600000 1 := cmpi .slt main_v24 main_v25
  let main_v27 : IVec S1600000 1 := andi main_v22 main_v26
  let main_c_8 : IVec S_ 1 := constantI S_ 1 1#1
  let main_v28 : IVec S_ 1 := (fun x v => Host.reduce IntOp.andi x v reducesTo_S1600000_S_d0 h_S_) main_v27 main_c_8
  let main_v29 : IVec S_ 1 := andi main_v18 main_v28
  main_v29

def fn {F : FTy → Type} [FloatOps F] (main_arg0 : FVec F S100000x128 .f32) (main_arg1 : FVec F S128x128 .f32) (main_arg2 : FVec F S128 .f32) (main_arg3 : IVec S2x1600000 32) (main_arg4 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1600000 .f32 := Host.absf main_arg4
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg3 main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1600000 : Shape := ⟨1, ![1600000]⟩
abbrev S5000x128 : Shape := ⟨2, ![5000, 128]⟩
abbrev S1x1600000 : Shape := ⟨2, ![1, 1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 43
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S1600000, .f32⟩
  | .hbm, ⟨5, _⟩ => ⟨S100000x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1, .i32⟩
  | .hbm, ⟨19, _⟩ => ⟨S_, .i32⟩
  | .hbm, ⟨20, _⟩ => ⟨S1600000x1, .i32⟩
  | .hbm, ⟨21, _⟩ => ⟨S1600000x1, .i1⟩
  | .hbm, ⟨22, _⟩ => ⟨S1x1, .i32⟩
  | .hbm, ⟨23, _⟩ => ⟨S1600000x1, .i32⟩
  | .hbm, ⟨24, _⟩ => ⟨S1600000x1, .i1⟩
  | .hbm, ⟨25, _⟩ => ⟨S1600000x1, .i1⟩
  | .hbm, ⟨26, _⟩ => ⟨S_, .i1⟩
  | .hbm, ⟨27, _⟩ => ⟨S1600000, .i1⟩
  | .hbm, ⟨28, _⟩ => ⟨S1600000x128, .f32⟩
  | .hbm, ⟨29, _⟩ => ⟨S1600000x128, .i1⟩
  | .hbm, ⟨30, _⟩ => ⟨S_, .f32⟩
  | .hbm, ⟨31, _⟩ => ⟨S1600000x128, .f32⟩
  | .hbm, ⟨32, _⟩ => ⟨S1600000x128, .f32⟩
  | .hbm, ⟨33, _⟩ => ⟨S1600000x1, .f32⟩
  | .hbm, ⟨34, _⟩ => ⟨S1600000x128, .f32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_cst : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1600000 : Shape := ⟨1, ![1600000]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S2x1600000, .i32⟩
  | .hbm, ⟨4, _⟩ => ⟨S1600000, .f32⟩
  | .hbm, ⟨5, _⟩ => ⟨S100000x128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S1600000x1, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.DenseProduct.lean ====
/-
  The dense transform `support = node_features @ weight`, tiled over the 100000-row axis in twenty blocks of 5000 rows.

  Each grid point loads a [5000,128] block of rows and the whole [128,128] weight, narrows both to bf16 (the identity on
  the extended reals) and stores their matrix product into the matching [5000,128] block of the result.  At the ideal
  instance the product accumulates onto an exact zero, so entry (p, q) of the block is `∑ k, x (p, k) * w (k, q)`.
  Block `t` of the output sits at rows `5000 t … 5000 t + 4999`, exactly where its input block came from, so every block is
  the restriction of ONE whole-array function, `rowsTimes`: entry (r, q) is row `r` of the features against column `q` of
  the weight.  The twenty blocks tile the rows (row `r` lies in block `r / 5000`), hence the result array ends at
  `rowsTimes` of the two argument arrays.
-/
import proofs.«421734_j22368189677639_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2)

/-- The matrix product, entry by entry: row `i 0` of `x` against column `i 1` of `w`. -/
def rowsTimes (x : S100000x128.Idx → EReal) (w : S128x128.Idx → EReal) : S100000x128.Idx → EReal :=
  fun i => ∑ k : Fin 128, x (ix2 (i 0) k) * w (ix2 k (i 1))

/-! ## One block's product at an entry -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What a grid point stores at entry (p, q) of its block: the block's row `p` against the weight's column `q`
    (the two narrowings are the identity; the accumulator is an exact zero). -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  rfl

/-! ## The blocks as restrictions of the whole product -/

section Blocks

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: at point `t` the feature rows and the result rows are both block `t`, the
    weight is always its one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `y` of the feature block at point `t` is the feature array at row `5000 t + y 0`. -/
theorem rows_apply (c : Dev nD) (t : Fin cfg0.N) (y : S5000x128.Idx) (i : S100000x128.Idx)
    (h0 : (i 0).val = 5000 * t.val + (y 0).val) (h1 : (i 1).val = (y 1).val) :
    (iblk m c 0 t : Vec Ideal S5000x128 .f32) y = (V m c main_arg0 : S100000x128.Idx → EReal) i := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weight's block at any point is the weight. -/
theorem weight_apply (c : Dev nD) (t : Fin cfg0.N) (y i : S128x128.Idx)
    (h0 : (i 0).val = (y 0).val) (h1 : (i 1).val = (y 1).val) :
    (iblk m c 1 t : Vec Ideal S128x128 .f32) y = (V m c main_arg1 : S128x128.Idx → EReal) i := by
  obtain ⟨-, -, e2, e3, -⟩ := idx_facts t
  unfold iblk
  rw [View.read_apply]
  show V m c main_arg1 _ = V m c main_arg1 _
  congr 1
  funext a
  apply Fin.ext
  match a with
  | ⟨0, _⟩ => show win0_1.index t 0 * 128 + 1 * (y 0).val = (i 0).val; rw [e2, h0]; omega
  | ⟨1, _⟩ => show win0_1.index t 1 * 128 + 1 * (y 1).val = (i 1).val; rw [e3, h1]; omega

/-- WHAT POINT `t` WRITES BACK is block `t` of the whole product. -/
theorem flushed_eq (c : Dev nD) (t : Fin cfg0.N) :
    (dats m 0 c).flushed 2 t = ((cfg0.win 2).blk t).view.read (Elt Ideal) (rowsTimes (V m c main_arg0) (V m c main_arg1)) := by
  show (cfg0.win 2).cut (grid0.coords t) ((dats m 0 c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx_facts t
  funext j
  show k0_pay1 (F := Ideal) (iblk m c 0 t) (iblk m c 1 t) j = rowsTimes (V m c main_arg0) (V m c main_arg1) (((cfg0.win 2).blk t).view.emb j)
  refine (congrArg (k0_pay1 (F := Ideal) (iblk m c 0 t) (iblk m c 1 t)) (eq_ix2 (n0 := 5000) (n1 := 128) j)).trans ?_
  refine (pay_apply (iblk m c 0 t) (iblk m c 1 t) (j 0) (j 1)).trans ?_
  unfold rowsTimes
  refine Finset.sum_congr rfl fun k _ => ?_
  have hr : ((((cfg0.win 2).blk t).view.emb j) 0).val = 5000 * t.val + (j 0).val := by
    show win0_2.index t 0 * 5000 + 1 * (j 0).val = _; rw [e4]; omega
  have hc : ((((cfg0.win 2).blk t).view.emb j) 1).val = (j 1).val := by
    show win0_2.index t 1 * 128 + 1 * (j 1).val = _; rw [e5]; omega
  rw [rows_apply m c t (ix2 (j 0) k) (ix2 ((((cfg0.win 2).blk t).view.emb j) 0) k) hr rfl,
    weight_apply m c t (ix2 k (j 1)) (ix2 k ((((cfg0.win 2).blk t).view.emb j) 1)) rfl hc]

/-- An index of the result array is in point `t`'s block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- The twenty row blocks tile the result: row `r` is in block `r / 5000`. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := idx_facts t
  refine ⟨t, flush0_2 t, ?_⟩
  rw [mem_blk]
  intro a
  match a with
  | ⟨0, _⟩ => show win0_2.index t 0 * 5000 ≤ (i 0).val ∧ (i 0).val < win0_2.index t 0 * 5000 + 5000; rw [e4, ht]; omega
  | ⟨1, _⟩ => show win0_2.index t 1 * 128 ≤ (i 1).val ∧ (i 1).val < win0_2.index t 1 * 128 + 128; rw [e5]; omega

/-- THE RESULT ARRAY of the dense transform after the twenty write-backs: the whole product of the two arguments. -/
theorem support_eq (c : Dev nD) :
    (dats m 0 c).arrAt 2 cfg0.N = rowsTimes (m ((c : Thread nD τ).loc main_arg0)) (m ((c : Thread nD τ).loc main_arg1)) :=
  (dats m 0 c).arrAt_eq_of_cover 2 (rowsTimes (V m c main_arg0) (V m c main_arg1)) (fun t _ => flushed_eq m c t) cover

end Blocks

end Cert.KernelIdeal.Dense

end
-- ==== Proof.SparseDefs.lean ====
/-
  The sparse aggregation `out[row] += val · support[col]` over 1,600,000 edges, then the bias, as pure functions.

  The edge list `adj` is [2, E]: row 0 the destination nodes (`dests`), row 1 the source nodes (`sources`).  A source
  index is first wrapped the numpy way (a negative index has the table's length added: `wrapped`), then the rows of the
  table are gathered (`gathered`).  The program's `jnp.take` goes on to replace the row of an edge whose wrapped source
  index still falls outside `0 … 99999` by the fill pattern (`inBounds` is the per-edge test, `taken` the
  gathered-or-filled rows).  Each edge's row is scaled by the edge's value, the scaled rows are added into a zero
  [100000,128] table at their destination rows, and the bias is added to every row (`aggregate`).
-/
import proofs.«421734_j22368189677639_1_alg».proof.KernelIdeal
import proofs.«421734_j22368189677639_1_alg».proof.Proof.Gen.KernelIdeal
import Idealize.ShloMosaic.PureOps

noncomputable section

namespace Cert.KernelIdeal.Sparse

open Cert.KernelIdeal Cert.KernelIdeal.Gen Idealize.ShloMosaic

variable {F : FTy → Type} [FloatOps F]

/-- The destination node of each edge: row 0 of the edge list. -/
def dests (adj : IVec S2x1600000 32) : IVec S1600000 32 :=
  shapeCast S1600000 (extractStridedSlice S1x1600000 ![0, 0] adj slices_S2x1600000_S1x1600000_0_0) shapeCasts_S1x1600000_S1600000

/-- The source node of each edge: row 1 of the edge list. -/
def sources (adj : IVec S2x1600000 32) : IVec S1600000 32 :=
  shapeCast S1600000 (extractStridedSlice S1x1600000 ![1, 0] adj slices_S2x1600000_S1x1600000_1_0) shapeCasts_S1x1600000_S1600000

/-- Source indices wrapped the numpy way (`i < 0 ↦ i + 100000`), as the [E, 1] column of start indices. -/
def wrapped (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32)))
      src)

/-- Per edge: is the wrapped source index one of the table's rows, `0 ≤ i ≤ 99999`? -/
def inBounds (src : IVec S1600000 32) : IVec S1600000 1 :=
  Host.reduce IntOp.andi
    (andi (cmpi .sge (wrapped src) (broadcastInDim S1600000x1 ![] bcast_S_S1600000x1 (constantI S_ 32 0#32)))
      (cmpi .sle (wrapped src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows of `s` at the wrapped source indices. -/
def gathered (s : FVec F S100000x128 .f32) (src : IVec S1600000 32) : FVec F S1600000x128 .f32 :=
  Host.gather gather_S100000x128_S1600000x1_S1600000x128_1_0_n_n_0_1_1128 s (wrapped src)

/-- The gathered rows, an out-of-bounds edge's row replaced by the fill pattern. -/
def taken (s : FVec F S100000x128 .f32) (src : IVec S1600000 32) : FVec F S1600000x128 .f32 :=
  select (broadcastInDim S1600000x128 ![0] bcast_S1600000_S1600000x128_0 (inBounds src)) (gathered s src)
    (broadcastInDim S1600000x128 ![] bcast_S_S1600000x128 (constant S_ .f32 0x7FC00000#32))

/-- Scale each edge's row `g e` by the edge's value, add the scaled rows into a zero table at their destination rows
    `dst`, add the bias to every row. -/
def aggregate (g : FVec F S1600000x128 .f32) (bias : FVec F S128 .f32) (dst : IVec S1600000 32) (vals : FVec F S1600000 .f32) :
    FVec F S100000x128 .f32 :=
  addf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (mulf (broadcastInDim S1600000x128 ![0, 1] bcast_S1600000x1_S1600000x128_0_1
        (broadcastInDim S1600000x1 ![0] bcast_S1600000_S1600000x1_0 vals)) g))
    (broadcastInDim S100000x128 ![0, 1] bcast_S1x128_S100000x128_0_1 (broadcastInDim S1x128 ![1] bcast_S128_S1x128_1 bias))

end Cert.KernelIdeal.Sparse

end
-- ==== Proof.SparseTail.lean ====
/-
  The program's lines after the dense transform, read as the sparse aggregation: they leave in the result buffer
  `aggregate` of the taken rows of the transform's result array — taken at the edge list's sources, added in at its
  destinations —, over the bias and the edge values the program was launched with.  (The `take` helper's lines are stated
  over typed buffers; reading or writing a buffer at its own declared type is the identity.)
-/
import proofs.«421734_j22368189677639_1_alg».proof.Proof.Gen.KernelIdeal.Frame
import proofs.«421734_j22368189677639_1_alg».proof.Proof.SparseDefs
import Idealize.ShloMosaic.Lib.StableHlo.Run
import Idealize.ShloMosaic.Lib.Pipeline.Value
import Idealize.ShloMosaic.PureOps.Ideal

set_option maxRecDepth 16384

noncomputable section

namespace Cert.KernelIdeal.Sparse

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

set_option maxHeartbeats 4000000 in
/-- THE LINES AFTER THE DENSE TRANSFORM leave, in the program's result buffer, `aggregate` of the taken rows of the
    transform's result array, over the bias, the edge list and the edge values as launched. -/
theorem tail_eq (c : Dev nD) :
    Pipeline.afterTail₀ cfgs (dats m) 0 (V0 m) [hostOps1, hostOps1_1, hostOps1_2] c main_v14
      = aggregate (taken ((dats m 0 c).arrAt 2 cfg0.N) (sources (m ((c : Thread nD τ).loc main_arg3))))
          (m ((c : Thread nD τ).loc main_arg2)) (dests (m ((c : Thread nD τ).loc main_arg3))) (m ((c : Thread nD τ).loc main_arg4)) := by
  have e0 : Pipeline.withArrays (cfgs 0).spec c (V0 m c) (fun w => (dats m 0 c).arrAt w (cfgs 0).N) (Proc.devRef .tc main_v0)
      = (dats m 0 c).arrAt 2 cfg0.N := Pipeline.withArrays_arr spec0 launch0.win.arr_inj c _ _ 2
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  unfold Pipeline.afterTail₀
  simp only [hostOps1, hostOps1_1, hostOps1_2, List.flatten_cons, List.flatten_nil, List.append_nil, List.cons_append, List.nil_append,
    TRef.nullary, TRef.unary, TRef.binary, TRef.ternary, TRef.ofBuf, TRef.toBuf, cast_eq]
  after_results
  rw [e0, e2, e3, e4]
  rfl

end Cert.KernelIdeal.Sparse

end
-- ==== Proof.SourcesInRange.lean ====
/-
  The one place where the program and its reference part ways, and why they do not on the stated domain.

  `jnp.take` (the program) and plain indexing (the reference) wrap a negative source index alike; past that, `take`
  replaces the row of an edge whose wrapped index is still outside `0 … 99999` by the fill pattern, where plain
  indexing reads a clamped row.  The claim's precondition says every source index of the edge list lies in
  `-100000 … 99999` — the indices at which indexing a 100000-row table is defined.  On that domain the wrapped index
  is `i + 100000` for `i < 0` and `i` otherwise, in both cases within `0 … 99999` (the 32-bit sum does not wrap); so
  the per-edge bounds test is 1 on every edge and the taken rows are the gathered rows.
-/
import proofs.«421734_j22368189677639_1_alg».proof.Pre_finite_inputs
import proofs.«421734_j22368189677639_1_alg».proof.Proof.Gen.Pre_finite_inputs
import proofs.«421734_j22368189677639_1_alg».proof.Proof.SparseDefs
import Idealize.ShloMosaic.Lib.ReduceAll
import Idealize.ShloMosaic.Lib.ValueIdx
import Idealize.ShloMosaic.Lib.Pipeline.Value

noncomputable section

namespace Cert.KernelIdeal.Sparse

open Cert.KernelIdeal Cert.KernelIdeal.Gen Idealize.ShloMosaic

/-! ## Two small facts about words -/

/-- A 32-bit sum read signed is the integer sum while that fits. -/
theorem toInt_add_of_fits (x y : BitVec 32) (h₁ : -2 ^ 31 ≤ x.toInt + y.toInt) (h₂ : x.toInt + y.toInt < 2 ^ 31) :
    (x + y).toInt = x.toInt + y.toInt := by
  rw [BitVec.toInt_add]
  exact Int.bmod_eq_of_le (by omega) (by omega)

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-! ## The domain, read off the precondition -/

/-- Every index of `src` is one numpy accepts for a table of 100000 rows. -/
def InRange (src : IVec S1600000 32) : Prop :=
  ∀ e : S1600000.Idx, -100000 ≤ (src e).toInt ∧ (src e).toInt < 100000

instance : Subsingleton Cert.Pre_finite_inputs.S_.Idx := ⟨fun a b => funext fun d => d.elim0⟩

/-- The precondition's last conjunct, `jnp.all((adj[1] >= -100000) & (adj[1] < 100000))`, element by element. -/
theorem sourcesInRange_of_pre (a0 : FVec Ideal Cert.Pre_finite_inputs.S100000x128 .f32) (a1 : FVec Ideal Cert.Pre_finite_inputs.S128x128 .f32)
    (a2 : FVec Ideal Cert.Pre_finite_inputs.S128 .f32) (adj : IVec S2x1600000 32) (a4 : FVec Ideal Cert.Pre_finite_inputs.S1600000 .f32)
    (h : Cert.Pre_finite_inputs.fn (F := Ideal) a0 a1 a2 adj a4 = fun _ => 1#1) : InRange (sources adj) := by
  intro e
  have h0 := congrFun h ValueIdx.ix0
  dsimp only [Cert.Pre_finite_inputs.fn, Cert.Pre_finite_inputs.fn_part1] at h0
  obtain ⟨-, h28⟩ := IntOp.andi_eq_one.1 h0
  have h27 := Host.reduce_andi_all _ _ _ _ _ h28 e
  obtain ⟨hge, hlt⟩ := IntOp.andi_eq_one.1 h27
  have hge' : (4294867296#32 : BitVec 32).toInt ≤ (sources adj e).toInt := IntOp.cmpi_sge.1 hge
  have hlt' : (sources adj e).toInt < (100000#32 : BitVec 32).toInt := IntOp.cmpi_slt.1 hlt
  rw [show (4294867296#32 : BitVec 32).toInt = -100000 from by decide] at hge'
  rw [show (100000#32 : BitVec 32).toInt = 100000 from by decide] at hlt'
  exact ⟨hge', hlt'⟩

/-! ## The wrapped index is a row of the table -/

/-- The wrapped index of edge `i 0`, as a word. -/
theorem wrapped_apply (src : IVec S1600000 32) (i : S1600000x1.Idx) :
    wrapped src i = Scalar.select (IntOp.cmpi .slt (src (ValueIdx.ix1 (i 0))) 0#32)
      (src (ValueIdx.ix1 (i 0)) + 100000#32) (src (ValueIdx.ix1 (i 0))) := by
  unfold wrapped
  exact broadcastInDim_apply ![0] bcast_S1600000_S1600000x1_0 _ i (ValueIdx.ix1 (i 0)) (fun a => match a with
    | ⟨0, _⟩ => by show (i 0).val = if (1600000 : Nat) = 1 then 0 else (i 0).val; rw [if_neg (by decide)])

/-- On the domain the wrapped index lies in `0 … 99999`. -/
theorem wrapped_bounds (src : IVec S1600000 32) (hs : InRange src) (i : S1600000x1.Idx) :
    0 ≤ (wrapped src i).toInt ∧ (wrapped src i).toInt ≤ 99999 := by
  rw [wrapped_apply]
  obtain ⟨h1, h2⟩ := hs (ValueIdx.ix1 (i 0))
  generalize src (ValueIdx.ix1 (i 0)) = s at h1 h2 ⊢
  have z0 : (0#32 : BitVec 32).toInt = 0 := by decide
  have z1 : (100000#32 : BitVec 32).toInt = 100000 := by decide
  unfold Scalar.select
  split
  · rename_i hc
    have hneg : s.toInt < 0 := by have := IntOp.cmpi_slt.1 hc; rwa [z0] at this
    rw [toInt_add_of_fits s 100000#32 (by rw [z1]; omega) (by rw [z1]; omega), z1]
    omega
  · rename_i hc
    have hnn : ¬ s.toInt < 0 := fun hneg => hc (IntOp.cmpi_slt.2 (show s.toInt < (0#32 : BitVec 32).toInt by rw [z0]; exact hneg))
    omega

/-- So the bounds test passes on every edge. -/
theorem inBounds_eq_one (src : IVec S1600000 32) (hs : InRange src) (e : S1600000.Idx) : inBounds src e = 1#1 := by
  unfold inBounds
  rw [Host.reduce_eq_foldl]
  refine foldl_andi_ones _ (fun i => ?_) _
  obtain ⟨h1, h2⟩ := wrapped_bounds src hs i
  refine IntOp.andi_eq_one.2 ⟨IntOp.cmpi_sge.2 ?_, IntOp.cmpi_sle.2 ?_⟩
  · show (0#32 : BitVec 32).toInt ≤ (wrapped src i).toInt
    rw [show (0#32 : BitVec 32).toInt = 0 from by decide]; exact h1
  · show (wrapped src i).toInt ≤ (99999#32 : BitVec 32).toInt
    rw [show (99999#32 : BitVec 32).toInt = 99999 from by decide]; exact h2

/-! ## The taken rows are the gathered rows -/

variable {F : FTy → Type} [FloatOps F]

/-- On the domain no edge's row is replaced by the fill pattern. -/
theorem taken_eq_gathered (s : FVec F S100000x128 .f32) (src : IVec S1600000 32) (hs : InRange src) :
    taken s src = gathered s src := by
  funext j
  unfold taken
  rw [ValueIdx.select_apply]
  have hm : broadcastInDim S1600000x128 ![0] bcast_S1600000_S1600000x128_0 (inBounds src) j = 1#1 := by
    rw [broadcastInDim_apply ![0] bcast_S1600000_S1600000x128_0 (inBounds src) j (ValueIdx.ix1 (j 0)) (fun a => match a with
      | ⟨0, _⟩ => by show (j 0).val = if (1600000 : Nat) = 1 then 0 else (j 0).val; rw [if_neg (by decide)])]
    exact inBounds_eq_one src hs _
  rw [hm]
  unfold Scalar.select
  exact if_pos rfl

end Cert.KernelIdeal.Sparse

end
-- ==== Proof.Result.lean ====
/-
  The one function both programs compute.

  With `support = rowsTimes x w` (row `r` of the features against column `q` of the weight), the result is
  `aggregate (gathered support (sources adj)) bias (dests adj) vals`: for each edge the row of `support` at its
  (wrapped) source index, scaled by the edge's value and added into the edge's destination row, plus the bias.
  * The reference computes `support` by one host matrix product — the same sums, term by term — and gathers, scales,
    scatter-adds and adds the bias by the same operations on the same operands: its run's term IS that function.
  * The program's dense transform leaves `support` in its result array (twenty row blocks), and its remaining lines
    compute `aggregate` of the TAKEN rows, which on the precondition's domain are the gathered rows.
-/
import proofs.«421734_j22368189677639_1_alg».proof.Defs
import proofs.«421734_j22368189677639_1_alg».proof.Proof.DenseProduct
import proofs.«421734_j22368189677639_1_alg».proof.Proof.SparseTail
import proofs.«421734_j22368189677639_1_alg».proof.Proof.SourcesInRange
import proofs.«421734_j22368189677639_1_alg».proof.Proof.Gen.ReferenceIdeal.Read

set_option maxRecDepth 16384

noncomputable section

namespace Cert.Proof.Result

open Idealize.ShloMosaic Idealize.ShloMosaic.TcCoe Idealize.SL.Sem
open Cert.KernelIdeal (S100000x128 S128x128 S128 S2x1600000 S1600000)
open Cert.KernelIdeal.Dense (rowsTimes)
open Cert.KernelIdeal.Sparse (aggregate gathered taken sources dests)

/-- The result, as one function of the five arguments. -/
def result (x : FVec Ideal S100000x128 .f32) (w : FVec Ideal S128x128 .f32) (bias : FVec Ideal S128 .f32)
    (adj : IVec S2x1600000 32) (vals : FVec Ideal S1600000 .f32) : FVec Ideal S100000x128 .f32 :=
  aggregate (F := Ideal) (gathered (F := Ideal) (rowsTimes x w) (sources adj)) bias (dests adj) vals

/-! ## The reference -/

/-- The host's matrix product is `rowsTimes`: at (r, q) the sum over `k` of `x (r, k) · w (k, q)`. -/
theorem hostProduct_eq (x : FVec Ideal S100000x128 .f32) (w : FVec Ideal S128x128 .f32) :
    Cert.ReferenceIdeal.Read.val_main_v0 (F := Ideal) x w = rowsTimes x w := by
  funext i
  refine (Cert.ReferenceIdeal.Read.val_main_v0_apply x w i).trans ?_
  unfold rowsTimes
  refine Finset.sum_congr rfl fun k _ => ?_
  have el : Cert.ReferenceIdeal.Read.lidx_main_v0 i k = ValueIdx.ix2 (i 0) k := funext fun a => by
    match a with
    | ⟨0, _⟩ => rfl
    | ⟨1, _⟩ => rfl
  have er : Cert.ReferenceIdeal.Read.ridx_main_v0 i k = ValueIdx.ix2 k (i 1) := funext fun a => by
    match a with
    | ⟨0, _⟩ => rfl
    | ⟨1, _⟩ => rfl
  rw [el, er]
  rfl

set_option maxRecDepth 100000 in
set_option maxHeartbeats 2000000 in
/-- The reference's whole term is `result`: past the product, the same operations on the same operands. -/
theorem reference_eq (x : FVec Ideal S100000x128 .f32) (w : FVec Ideal S128x128 .f32) (bias : FVec Ideal S128 .f32)
    (adj : IVec S2x1600000 32) (vals : FVec Ideal S1600000 .f32) :
    Cert.ReferenceIdeal.Read.val_main_v20 (F := Ideal) x w bias adj vals = result x w bias adj vals := by
  unfold Cert.ReferenceIdeal.Read.val_main_v20 Cert.ReferenceIdeal.Read.val_main_v17 Cert.ReferenceIdeal.Read.val_main_v14
    Cert.ReferenceIdeal.Read.val_main_v12
  rw [hostProduct_eq]
  rfl

/-! ## The program -/

section Program

open Cert.KernelIdeal Cert.KernelIdeal.Gen

variable (m : (ℓ : Loc nD τ sig) → Buf (Elt Ideal) ℓ) (ρ : Dev nD → PrngReg)

/-- The program's run, read: the result buffer ends at `result` of the arguments as launched, and the arguments end
    unchanged. -/
theorem kernel_run (hpre : Cert.Pre_KernelIdeal m) :
    θ_run defs (onTc (τ := τ) (main (F := Ideal))) ⟨m, fun _ => 0, ρ⟩ (fun r => ∀ c : Dev nD,
      r.2.mem ((c.tc : Thread nD τ).loc main_v14) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans
        ((Cert.KernelIdeal.Sparse.tail_eq m c).trans (by
          rw [Cert.KernelIdeal.Dense.support_eq m c,
            Cert.KernelIdeal.Sparse.taken_eq_gathered _ _ (Cert.KernelIdeal.Sparse.sourcesInRange_of_pre _ _ _ _ _ (hpre c))]
          rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Program

end Cert.Proof.Result

end
-- ==== Proof.lean ====
/-
  A graph-convolution layer, `out = A · (X W) + b` with `A` a sparse [N, N] matrix given as 1,600,000 (row, col, value)
  edges, N = 100000 nodes and 128 features: the program against its jnp reference, over the extended reals.

  Both compute `support = X W` and then, for each edge `e`, add `val e · support[col e]` into row `row e` of a zero table,
  and add the bias to every row.  The program computes `support` with a TensorCore kernel over twenty blocks of 5000 rows
  (bf16 operands, which at the ideal instance are the same extended reals) and the rest on the host with `jnp.take` and
  `segment_sum`; the reference computes `support` by one host matrix product and the rest with plain indexing and
  `segment_sum`.  The two differ in one thing only: `jnp.take` fills the row of an edge whose source index is out of range,
  plain indexing clamps it.  The precondition (finite floats, and every source index in `-100000 … 99999`, where indexing
  a 100000-row table is defined) rules such edges out, and then both programs end at the same function of the
  arguments, `Result.result` — term by term: no sum is regrouped, so no finiteness is used.

  * Proof/DenseProduct.lean — the kernel's result array is `rowsTimes X W`.
  * Proof/SparseDefs.lean, Proof/SparseTail.lean — the program's host lines as `aggregate (taken …) …`.
  * Proof/SourcesInRange.lean — on the precondition's domain `taken = gathered`.
  * Proof/Result.lean — the program's run and the reference's term, both at `result`.
-/
import proofs.«421734_j22368189677639_1_alg».proof.Defs
import proofs.«421734_j22368189677639_1_alg».proof.Proof.Gen.Kernel
import proofs.«421734_j22368189677639_1_alg».proof.Proof.Gen.Kernel.Skeleton
import proofs.«421734_j22368189677639_1_alg».proof.Proof.Gen.Kernel.Launch
import proofs.«421734_j22368189677639_1_alg».proof.Proof.Gen.Kernel.Points
import proofs.«421734_j22368189677639_1_alg».proof.Proof.Gen.Kernel.Frame
import proofs.«421734_j22368189677639_1_alg».proof.Proof.Gen.KernelIdeal
import proofs.«421734_j22368189677639_1_alg».proof.Proof.Gen.KernelIdeal.Skeleton
import proofs.«421734_j22368189677639_1_alg».proof.Proof.Gen.KernelIdeal.Launch
import proofs.«421734_j22368189677639_1_alg».proof.Proof.Gen.KernelIdeal.Points
import proofs.«421734_j22368189677639_1_alg».proof.Proof.Gen.KernelIdeal.Frame
import proofs.«421734_j22368189677639_1_alg».proof.Proof.Gen.ReferenceIdeal
import proofs.«421734_j22368189677639_1_alg».proof.Proof.Gen.ReferenceIdeal.Run
import proofs.«421734_j22368189677639_1_alg».proof.Proof.Gen.ReferenceIdeal.Read
import proofs.«421734_j22368189677639_1_alg».proof.Proof.Gen.Pre_finite_inputs
import proofs.«421734_j22368189677639_1_alg».proof.Proof.Result
import Idealize.ShloMosaic.Adequacy
import Idealize.ShloMosaic.Init

noncomputable section

namespace Cert.Proof

open Idealize.ShloMosaic Idealize.SL.Sem

/-- The word-level program runs and leaves its arguments as they were (its generated frame). -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, under the precondition, both programs end at `Result.result` of the
    arguments. -/
theorem algebraic : Cert.algebraic_KernelIdeal_ReferenceIdeal := by
  intro m ρ m' ρ' hpre hagree
  refine ⟨_, Cert.Proof.Result.kernel_run m ρ hpre, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v20_eq _ _ _ _ _).trans (Cert.Proof.Result.reference_eq _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
